-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x2048 : Shape := ⟨3, ![4, 4096, 2048]⟩
abbrev S2048x2048 : Shape := ⟨2, ![2048, 2048]⟩
abbrev S_ : Shape := ⟨0, ![]⟩

class Facts : Prop where
  bcast_S_S4x4096x2048 : S_.BroadcastsInDim S4x4096x2048 (![] : Fin 0 → Fin S4x4096x2048.rank)
  reducesTo_S4x4096x2048_S_d0_1_2 : S4x4096x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_

variable [Facts]

def fn {F : FTy → Type} [FloatOps F] (main_arg0 : FVec F S4x4096x2048 .f32) (main_arg1 : FVec F S2048x2048 .f32) (main_arg2 : FVec F S2048x2048 .f32) : IVec S_ 1 :=
  let main_v0 : FVec F S4x4096x2048 .f32 := Host.absf main_arg0
  let main_cst : FVec F S_ .f32 := constant S_ .f32 0x7F800000#32
  let main_v1 : FVec F S4x4096x2048 .f32 := broadcastInDim S4x4096x2048 ![] bcast_S_S4x4096x2048 main_cst
  let main_v2 : IVec S4x4096x2048 1 := cmpf .olt main_v0 main_v1
  let main_c : IVec S_ 1 := constantI S_ 1 1#1
  let main_v3 : IVec S_ 1 := (fun x v => Host.reduce IntOp.andi x v reducesTo_S4x4096x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  main_v13
-- ==== Kernel.lean ====
abbrev S4x4096x2048 : Shape := ⟨3, ![4, 4096, 2048]⟩
abbrev S2048x2048 : Shape := ⟨2, ![2048, 2048]⟩
abbrev S_ : Shape := ⟨0, ![]⟩
abbrev S16384x2048 : Shape := ⟨2, ![16384, 2048]⟩
abbrev S512x2048 : Shape := ⟨2, ![512, 2048]⟩

abbrev nBuf : Space → Nat
  | .hbm => 24
  | .vmem => 5
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S2048x2048, .f32⟩
  | .hbm, ⟨5, _⟩ => ⟨S2048x2048, .i1⟩
  | .hbm, ⟨6, _⟩ => ⟨S_, .f32⟩
  | .hbm, ⟨7, _⟩ => ⟨S2048x2048, .f32⟩
  | .hbm, ⟨8, _⟩ => ⟨S2048x2048, .i1⟩
  | .hbm, ⟨9, _⟩ => ⟨S_, .f32⟩
  | .hbm, ⟨10, _⟩ => ⟨S_, .f32⟩
  | .hbm, ⟨11, _⟩ => ⟨S2048x2048, .f32⟩
  | .hbm, ⟨12, _⟩ => ⟨S2048x2048, .f32⟩
  | .hbm, ⟨13, _⟩ => ⟨S2048x2048, .f32⟩
  | .hbm, ⟨14, _⟩ => ⟨S_, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .bf16⟩
  | .hbm, ⟨21, _⟩ => ⟨S16384x2048, .f32⟩
  | .hbm, ⟨22, _⟩ => ⟨S16384x2048, .f32⟩
  | .hbm, ⟨23, _⟩ => ⟨S4x4096x2048, .f32⟩
  | .local _ .vmem, ⟨0, _⟩ => ⟨S512x2048, .f32⟩
  | .local _ .vmem, ⟨1, _⟩ => ⟨S512x2048, .f32⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_3 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S2048x2048 : S_.BroadcastsInDim S2048x2048 (![] : Fin 0 → Fin S2048x2048.rank)
  transposes_S2048x2048_S2048x2048_1_0 : S2048x2048.Transposes [1, 0] S2048x2048
  bitsLt_bf16_f32 : FTy.bits .bf16 < FTy.bits .f32
  shapeCasts_S4x4096x2048_S16384x2048 : S4x4096x2048.ShapeCasts S16384x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  shapeCasts_S16384x2048_S4x4096x2048 : S16384x2048.ShapeCasts S4x4096x2048
  dot_S512x2048_S2048x2048_S512x2048_1_0_0_1_n_n_wf : DotDims.WF S512x2048 S2048x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S16384x2048.size a
  hwx0_0 : ∀ i : grid0.Coords, EltTy.bits .f32 = 32 ∨ (Rect.block (s := S16384x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2048.size a ≤ S16384x2048.size a
  hwx0_2 : ∀ i : grid0.Coords, EltTy.bits .f32 = 32 ∨ (Rect.block (s := S16384x2048) S512x2048.size (cc0_transform_2 i) (hinb0_2 i)).WholeWords (EltTy.packing .f32)

variable [Facts₀]

def dot_S512x2048_S2048x2048_S512x2048_1_0_0_1_n_n : DotDims S512x2048 S2048x2048 S512x2048 where
  lhsContracting := [1]
  rhsContracting := [0]
  lhsNonContracting := [0]
  rhsNonContracting := [1]
  lhsBatch := []
  rhsBatch := []
  wf := dot_S512x2048_S2048x2048_S512x2048_1_0_0_1_n_n_wf

abbrev win0_0 : Pipeline.Window sig grid0 :=
  Pipeline.Window.ofSpec (Memref.whole main_v10) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S512x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x2048 : Shape := ⟨3, ![4, 4096, 2048]⟩
abbrev S2048x2048 : Shape := ⟨2, ![2048, 2048]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S4x4096x2048, .f32⟩
  | .hbm, ⟨5, _⟩ => ⟨S4x4096x2048, .i1⟩
  | .hbm, ⟨6, _⟩ => ⟨S_, .f32⟩
  | .hbm, ⟨7, _⟩ => ⟨S4x4096x2048, .f32⟩
  | .hbm, ⟨8, _⟩ => ⟨S4x4096x2048, .i1⟩
  | .hbm, ⟨9, _⟩ => ⟨S_, .f32⟩
  | .hbm, ⟨10, _⟩ => ⟨S_, .f32⟩
  | .hbm, ⟨11, _⟩ => ⟨S4x4096x2048, .f32⟩
  | .hbm, ⟨12, _⟩ => ⟨S4x4096x2048, .f32⟩
  | .hbm, ⟨13, _⟩ => ⟨S4x4096x2048, .f32⟩
  | .hbm, ⟨14, _⟩ => ⟨S_, .f32⟩
  | .hbm, ⟨15, _⟩ => ⟨S4x4096x2048, .f32⟩
  | .hbm, ⟨16, _⟩ => ⟨S4x4096x2048, .f32⟩
  | .hbm, ⟨17, _⟩ => ⟨S4x4096x2048, .f32⟩
  | .hbm, ⟨18, _⟩ => ⟨S_, .f32⟩
  | .hbm, ⟨19, _⟩ => ⟨S2048x2048, .f32⟩
  | .hbm, ⟨20, _⟩ => ⟨S2048x2048, .i1⟩
  | .hbm, ⟨21, _⟩ => ⟨S_, .f32⟩
  | .hbm, ⟨22, _⟩ => ⟨S2048x2048, .f32⟩
  | .hbm, ⟨23, _⟩ => ⟨S2048x2048, .i1⟩
  | .hbm, ⟨24, _⟩ => ⟨S_, .f32⟩
  | .hbm, ⟨25, _⟩ => ⟨S_, .f32⟩
  | .hbm, ⟨26, _⟩ => ⟨S2048x2048, .f32⟩
  | .hbm, ⟨27, _⟩ => ⟨S2048x2048, .f32⟩
  | .hbm, ⟨28, _⟩ => ⟨S2048x2048, .f32⟩
  | .hbm, ⟨29, _⟩ => ⟨S_, .f32⟩
  | .hbm, ⟨30, _⟩ => ⟨S2048x2048, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S4x4096x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_3 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_cst_4 : Ref sig .tc := ⟨.hbm, 18, rfl⟩
abbrev main_v7 : Ref sig .tc := ⟨.hbm, 19, rfl⟩
abbrev main_v8 : Ref sig .tc := ⟨.hbm, 20, rfl⟩
abbrev main_cst_5 : Ref sig .tc := ⟨.hbm, 21, rfl⟩
abbrev main_v9 : Ref sig .tc := ⟨.hbm, 22, rfl⟩
abbrev main_v10 : Ref sig .tc := ⟨.hbm, 23, rfl⟩
abbrev main_cst_6 : Ref sig .tc := ⟨.hbm, 24, rfl⟩
abbrev main_cst_7 : Ref sig .tc := ⟨.hbm, 25, rfl⟩
abbrev main_call2_v0 : Ref sig .tc := ⟨.hbm, 26, rfl⟩
abbrev main_call2_v1 : Ref sig .tc := ⟨.hbm, 27, rfl⟩
abbrev main_v11 : Ref sig .tc := ⟨.hbm, 28, rfl⟩
abbrev main_cst_8 : Ref sig .tc := ⟨.hbm, 29, rfl⟩
abbrev main_call3_v0 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]

class Facts₀ : Prop where
  bcast_S_S4x4096x2048 : S_.BroadcastsInDim S4x4096x2048 (![] : Fin 0 → Fin S4x4096x2048.rank)
  bcast_S_S2048x2048 : S_.BroadcastsInDim S2048x2048 (![] : Fin 0 → Fin S2048x2048.rank)
  dot_S4x4096x2048_S2048x2048_S4x4096x2048_2_1_01_0_n_n_wf : DotDims.WF S4x4096x2048 S2048x2048 S4x4096x2048 [2] [1] [0, 1] [0] [] []

variable [Facts₀]

def dot_S4x4096x2048_S2048x2048_S4x4096x2048_2_1_01_0_n_n : DotDims S4x4096x2048 S2048x2048 S4x4096x2048 where
  lhsContracting := [2]
  rhsContracting := [1]
  lhsNonContracting := [0, 1]
  rhsNonContracting := [0]
  lhsBatch := []
  rhsBatch := []
  wf := dot_S4x4096x2048_S2048x2048_S4x4096x2048_2_1_01_0_n_n_wf

class Facts : Prop extends Facts₀ where

variable [Facts]
-- ==== Proof.Spec.lean ====
/-
  A linear layer over three-level quantised operands, as one function of its three arguments.

  An activation entry e is replaced by q(e): the level hi where e lies above a threshold, the level lo where it lies below
  the negated threshold, zero between. A weight entry is quantised the same way with its own threshold and levels, and a
  per-entry perturbation is added to it. The layer's output at (b, s, o) is the sum over d of
  q_x(x[b, s, d]) * (q_w(w[o, d]) + r[o, d]).
  The thresholds and levels stay the binary words they are written as: the same word denotes the same extended real
  wherever it stands, so none is evaluated.
-/
import Idealize.ShloMosaic.PureOps.Ideal.Laws
import Idealize.ShloMosaic.Lib.ValueIdx

noncomputable section

open scoped BigOperators

namespace TernaryLinear

open Idealize.ShloMosaic Idealize.ShloMosaic.ValueIdx

/-- The three-level quantiser: hi above the threshold th, lo below the threshold nth, zero otherwise. The comparison
    above th is made first, as a nested choice. -/
def tern (th nth hi lo : BitVec 32) (e : Ideal .f32) : Ideal .f32 :=
  Scalar.select (FloatOps.cmpf .ogt e (FloatOps.ofBits .f32 th)) (FloatOps.ofBits .f32 hi)
    (Scalar.select (FloatOps.cmpf .olt e (FloatOps.ofBits .f32 nth)) (FloatOps.ofBits .f32 lo)
      (FloatOps.ofBits .f32 0x00000000#32))

/-- The activations' quantiser: thresholds ±0.33 and levels ±0.5, as single-precision words. -/
abbrev qact : Ideal .f32 → Ideal .f32 := tern 0x3EA8F5C3#32 0xBEA8F5C3#32 0x3F000000#32 0xBF000000#32

/-- The weights' quantiser: thresholds ±0.2 and levels ±0.6, as single-precision words. -/
abbrev qwt : Ideal .f32 → Ideal .f32 := tern 0x3E4CCCCD#32 0xBE4CCCCD#32 0x3F19999A#32 0xBF19999A#32

/-- The perturbed quantised weight matrix, entry (o, d). -/
def noisyWeight (w r : (⟨2, ![2048, 2048]⟩ : Shape).Idx → Ideal .f32) : (⟨2, ![2048, 2048]⟩ : Shape).Idx → Ideal .f32 :=
  fun j => qwt (w j) + r j

/-- The layer over the batch of sequences: out[b, s, o] = Σ_d q_x(x[b, s, d]) * (q_w(w[o, d]) + r[o, d]). -/
def layer (x : (⟨3, ![4, 4096, 2048]⟩ : Shape).Idx → Ideal .f32) (w r : (⟨2, ![2048, 2048]⟩ : Shape).Idx → Ideal .f32) :
    (⟨3, ![4, 4096, 2048]⟩ : Shape).Idx → Ideal .f32 :=
  fun i => ∑ d : Fin 2048, qact (x (ix3 (i 0) (i 1) d)) * noisyWeight w r (ix2 (i 2) d)

/-- The same layer over the rows of a flattened activation matrix X and an already transposed weight matrix Wt:
    out[row, o] = Σ_d q_x(X[row, d]) * Wt[d, o]. -/
def rowsLayer (X : (⟨2, ![16384, 2048]⟩ : Shape).Idx → Ideal .f32) (Wt : (⟨2, ![2048, 2048]⟩ : Shape).Idx → Ideal .bf16) :
    (⟨2, ![16384, 2048]⟩ : Shape).Idx → Ideal .f32 :=
  fun i => ∑ d : Fin 2048, qact (X (ix2 (i 0) d)) * Wt (ix2 d (i 1))

end TernaryLinear

end
-- ==== Proof.LibPlainMatmul.lean ====
/-
  The matrix unit's plain product read at an index, over the extended reals.

  For an m×k matrix A and a k×n matrix B, with dimension numbers contracting A's columns with B's rows, the product into
  a zero accumulator has at (a, b) the entry Σ_c A[a, c] * B[c, b]: the accumulator's zero word is the real zero, and the
  contraction's one-axis index set is re-indexed by its one coordinate.
-/
import Idealize.ShloMosaic.PureOps.Ideal.Laws
import Idealize.ShloMosaic.Lib.ValueIdx

noncomputable section

open scoped BigOperators

namespace PlainMatmul

open Idealize.ShloMosaic Idealize.ShloMosaic.ValueIdx

/-- The matrix unit's plain product of an m×k by a k×n matrix into a zero accumulator, at (a, b): the sum over the
    contracted coordinate of the products of the entries. -/
theorem matmul_plain_zero_apply {m k n : ℕ} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  refine (Ideal.matmul_constant_zero_apply (DotDims.plain m k n) prec A B (ix2 a b)).trans ?_
  rw [← Equiv.sum_comp (contrEquiv1 (DotDims.plain m k n) k rfl rfl).symm]
  refine Finset.sum_congr rfl fun c _ => ?_
  have hc := contrEquiv1_symm_val (DotDims.plain m k n) k rfl rfl c
  have hl : (DotDims.plain m k n).lhsIdx (ix2 a b) ((contrEquiv1 _ k rfl rfl).symm c) = ix2 a c := by
    funext ax; apply Fin.ext
    match ax with
    | ⟨0, _⟩ => simp [DotDims.lhsIdx, DotDims.plain]; rfl
    | ⟨1, _⟩ => simp [DotDims.lhsIdx, DotDims.plain]; exact hc
  have hr : (DotDims.plain m k n).rhsIdx (ix2 a b) ((contrEquiv1 _ k rfl rfl).symm c) = ix2 c b := by
    funext ax; apply Fin.ext
    match ax with
    | ⟨0, _⟩ => simp [DotDims.rhsIdx, DotDims.plain]; exact hc
    | ⟨1, _⟩ => simp [DotDims.rhsIdx, DotDims.plain]; rfl
  rw [hl, hr]

end PlainMatmul

end
-- ==== Proof.Body.lean ====
/-
  The kernel body's one stored value, read at an index of its 512×2048 block: the block of activations is quantised entry
  by entry, narrowed (the identity on extended reals) and multiplied on the matrix unit, into a zero accumulator, with the
  resident 2048×2048 weight block. Entry (p, q) is the sum over d of q_x(x0[p, d]) * x1[d, q].
-/
import proofs.«123948_j81260781240394_1_alg».proof.Proof.Gen.KernelIdeal.Skeleton
import proofs.«123948_j81260781240394_1_alg».proof.Proof.Spec
import proofs.«123948_j81260781240394_1_alg».proof.Proof.LibPlainMatmul
import Idealize.ShloMosaic.Lib.Pipeline.Value

noncomputable section

open scoped BigOperators

namespace Cert.KernelIdeal.Body

open Cert.KernelIdeal Cert.KernelIdeal.Gen Idealize.ShloMosaic Idealize.ShloMosaic.ValueIdx

/-- The product's dimension numbers are the plain ones: rows × contraction times contraction × columns. -/
theorem dims_plain : dot_S512x2048_S2048x2048_S512x2048_1_0_0_1_n_n = DotDims.plain 512 2048 2048 := rfl

/-- The stored value at (p, q). -/
theorem pay_apply (x0 : Vec Ideal S512x2048 .f32) (x1 : Vec Ideal S2048x2048 .bf16) (p : Fin 512) (q : Fin 2048) :
    k0_pay1 (F := Ideal) x0 x1 (ix2 p q) = ∑ d : Fin 2048, TernaryLinear.qact (x0 (ix2 p d)) * x1 (ix2 d q) := by
  unfold k0_pay1
  rw [shapeCast_self, shapeCast_self, dims_plain]
  refine (PlainMatmul.matmul_plain_zero_apply (φ₁ := .bf16) (φ₂ := .bf16) none _ x1 p q).trans ?_
  rfl

/-- The same at any index of the block, by its two coordinates. -/
theorem pay_at (x0 : Vec Ideal S512x2048 .f32) (x1 : Vec Ideal S2048x2048 .bf16) (j : S512x2048.Idx) :
    k0_pay1 (F := Ideal) x0 x1 j = ∑ d : Fin 2048, TernaryLinear.qact (x0 (ix2 (j 0) d)) * x1 (ix2 d (j 1)) := by
  obtain ⟨p, q, rfl⟩ : ∃ (p : Fin 512) (q : Fin 2048), j = ix2 p q := ⟨j 0, j 1, eq_ix2 j⟩
  exact pay_apply x0 x1 p q

end Cert.KernelIdeal.Body

end
-- ==== Proof.HostSide.lean ====
/-
  The operations around the kernel region, read at an index.

  Before the region the weights are quantised, perturbed, transposed and narrowed (the narrowing is the identity on
  extended reals): the region's weight operand at (d, o) is the perturbed quantised weight at (o, d). The activations are
  flattened from [4, 4096, 2048] to [16384, 2048]: row b * 4096 + s is the sequence position (b, s). After the region the
  result is unflattened the same way. So the row layer of the flattened activations and the transposed weights,
  unflattened, is the layer.
-/
import proofs.«123948_j81260781240394_1_alg».proof.Proof.Gen.KernelIdeal
import proofs.«123948_j81260781240394_1_alg».proof.Proof.Spec
import Idealize.ShloMosaic.Lib.Pipeline.Value
import Idealize.ShloMosaic.Lib.ValueLayout

noncomputable section

open scoped BigOperators

namespace Cert.KernelIdeal.Host

open Cert.KernelIdeal Cert.KernelIdeal.Facts₀ Idealize.ShloMosaic Idealize.ShloMosaic.ValueIdx

/-- The region's weight operand as a term of the weight and perturbation arguments: the nested choice between the
    levels, plus the perturbation, transposed, narrowed. -/
def weightOperand (w r : Vec Ideal S2048x2048 .f32) : Vec Ideal S2048x2048 .bf16 :=
  truncf .bf16
    (transpose S2048x2048 [1, 0]
      (addf
        (id
          (select (cmpf .ogt w (broadcastInDim S2048x2048 ![] bcast_S_S2048x2048 (constant (F := Ideal) S_ .f32 0x3E4CCCCD#32)))
            (broadcastInDim S2048x2048 ![] bcast_S_S2048x2048 (constant (F := Ideal) S_ .f32 0x3F19999A#32))
            (select (cmpf .olt w (broadcastInDim S2048x2048 ![] bcast_S_S2048x2048 (constant (F := Ideal) S_ .f32 0xBE4CCCCD#32)))
              (broadcastInDim S2048x2048 ![] bcast_S_S2048x2048 (constant (F := Ideal) S_ .f32 0xBF19999A#32))
              (broadcastInDim S2048x2048 ![] bcast_S_S2048x2048 (constant (F := Ideal) S_ .f32 0x00000000#32)))))
        r)
      transposes_S2048x2048_S2048x2048_1_0)
    bitsLt_bf16_f32

/-- A scalar constant broadcast over the weight matrix reads the constant everywhere. -/
theorem splat_apply (b : BitVec 32) (i : S2048x2048.Idx) :
    broadcastInDim S2048x2048 ![] bcast_S_S2048x2048 (constant (F := Ideal) S_ .f32 b) i = FloatOps.ofBits (F := Ideal) .f32 b :=
  broadcastInDim_apply ![] bcast_S_S2048x2048 _ i ix0 (fun a => a.elim0)

/-- The weight operand at (d, o) is the perturbed quantised weight at (o, d). -/
theorem weightOperand_apply (w r : Vec Ideal S2048x2048 .f32) (d o : Fin 2048) :
    weightOperand w r (ix2 d o) = TernaryLinear.noisyWeight w r (ix2 o d) := by
  unfold weightOperand
  rw [truncf_apply]
  refine (transpose_ix2_apply (a := 2048) (b := 2048) _ transposes_S2048x2048_S2048x2048_1_0 d o).trans ?_
  rw [addf_apply]
  simp only [id, select_apply, cmpf_apply, splat_apply]
  rfl

/-- The flattened activations at (row, d), row = b * 4096 + s, are the activations at (b, s, d). -/
theorem flatten_apply (x : Vec Ideal S4x4096x2048 .f32) (b : Fin 4) (s : Fin 4096) (d : Fin 2048) (row : Fin 16384)
    (h : row.val = b.val * 4096 + s.val) :
    shapeCast S16384x2048 x shapeCasts_S4x4096x2048_S16384x2048 (ix2 row d) = x (ix3 b s d) :=
  shapeCast_apply x _ (ix2 row d) (ix3 b s d) (by
    rw [Shape.rowMajor_val_three, Shape.rowMajor_val_two]
    show (b.val * 4096 + s.val) * 2048 + d.val = row.val * 2048 + d.val
    rw [h])

/-- A flat result unflattened reads, at (b, s, o), row b * 4096 + s. -/
theorem unflatten_apply (y : Vec Ideal S16384x2048 .f32) (b : Fin 4) (s : Fin 4096) (o : Fin 2048) (row : Fin 16384)
    (h : row.val = b.val * 4096 + s.val) :
    shapeCast S4x4096x2048 y shapeCasts_S16384x2048_S4x4096x2048 (ix3 b s o) = y (ix2 row o) :=
  shapeCast_apply y _ (ix3 b s o) (ix2 row o) (by
    rw [Shape.rowMajor_val_three, Shape.rowMajor_val_two]
    show row.val * 2048 + o.val = (b.val * 4096 + s.val) * 2048 + o.val
    rw [h])

/-- The row layer of the flattened activations and the weight operand, unflattened, is the layer. -/
theorem unflatten_rowsLayer (x : Vec Ideal S4x4096x2048 .f32) (w r : Vec Ideal S2048x2048 .f32) :
    shapeCast S4x4096x2048
        (TernaryLinear.rowsLayer (shapeCast S16384x2048 x shapeCasts_S4x4096x2048_S16384x2048) (weightOperand w r))
        shapeCasts_S16384x2048_S4x4096x2048
      = TernaryLinear.layer x w r := by
  funext i
  obtain ⟨b, s, o, rfl⟩ : ∃ (b : Fin 4) (s : Fin 4096) (o : Fin 2048), i = ix3 b s o := ⟨i 0, i 1, i 2, eq_ix3 i⟩
  have hrow : b.val * 4096 + s.val < 16384 := by have := b.isLt; have := s.isLt; omega
  rw [unflatten_apply _ b s o ⟨b.val * 4096 + s.val, hrow⟩ rfl]
  unfold TernaryLinear.rowsLayer TernaryLinear.layer
  refine Finset.sum_congr rfl fun d _ => ?_
  show TernaryLinear.qact (shapeCast S16384x2048 x shapeCasts_S4x4096x2048_S16384x2048 (ix2 ⟨b.val * 4096 + s.val, hrow⟩ d))
      * weightOperand w r (ix2 d o) = TernaryLinear.qact (x (ix3 b s d)) * TernaryLinear.noisyWeight w r (ix2 o d)
  rw [flatten_apply x b s d ⟨b.val * 4096 + s.val, hrow⟩ rfl, weightOperand_apply]

end Cert.KernelIdeal.Host

end
-- ==== Proof.Whole.lean ====
/-
  The kernel program's result as one function of its arguments.

  The region runs over 32 points; point t reads rows 512 t … 512 t + 511 of the flattened activations and the whole weight
  operand, and writes the same rows of the flat result. What a point writes is a block of ONE function of the two arrays
  the region finds: the row layer. The 32 row blocks cover the flat result, so after the region it holds the row layer of
  the flattened activations and the weight operand; the reshape after the region unflattens it, and that is the layer of
  the program's three arguments.
-/
import proofs.«123948_j81260781240394_1_alg».proof.Proof.Gen.KernelIdeal.Frame
import proofs.«123948_j81260781240394_1_alg».proof.Proof.Body
import proofs.«123948_j81260781240394_1_alg».proof.Proof.HostSide
import Idealize.ShloMosaic.Lib.Pipeline.Value
import Idealize.ShloMosaic.Lib.StableHlo.Run
import Idealize.ShloMosaic.Lib.Tactic

noncomputable section

open scoped BigOperators

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The block index maps over the grid: the activations' and the result's blocks are row block t, all columns; the weight
    operand's block is the whole matrix at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The activations' block at point t is rows 512 t … 512 t + 511 of the flattened activations. -/
theorem actBlock_apply (c : Dev nD) (t : Fin cfg0.N) (y : S512x2048.Idx) (k : S16384x2048.Idx)
    (hk0 : (k 0).val = 512 * t.val + (y 0).val) (hk1 : (k 1).val = (y 1).val) :
    (iblk m c 0 t : Vec Ideal S512x2048 .f32) y = (V m c main_v10 : S16384x2048.Idx → Ideal .f32) k := by
  obtain ⟨e00, e01, -, -, -, -⟩ := idx_facts t
  unfold iblk
  rw [View.read_apply]
  show V m c main_v10 _ = V m c main_v10 _
  congr 1
  funext a
  apply Fin.ext
  match a with
  | ⟨0, _⟩ => show win0_0.index t (0 : Fin 2) * 512 + 1 * (y 0).val = (k 0).val; rw [e00, hk0]; omega
  | ⟨1, _⟩ => show win0_0.index t (1 : Fin 2) * 2048 + 1 * (y 1).val = (k 1).val; rw [e01, hk1]; omega

/-- The weight operand's block at every point is the whole operand. -/
theorem weightBlock_apply (c : Dev nD) (t : Fin cfg0.N) (y : S2048x2048.Idx) (k : S2048x2048.Idx)
    (hk0 : (k 0).val = (y 0).val) (hk1 : (k 1).val = (y 1).val) :
    (iblk m c 1 t : Vec Ideal S2048x2048 .bf16) y = (V m c main_v9 : S2048x2048.Idx → Ideal .bf16) k := by
  obtain ⟨-, -, e10, e11, -, -⟩ := idx_facts t
  unfold iblk
  rw [View.read_apply]
  show V m c main_v9 _ = V m c main_v9 _
  congr 1
  funext a
  apply Fin.ext
  match a with
  | ⟨0, _⟩ => show win0_1.index t (0 : Fin 2) * 2048 + 1 * (y 0).val = (k 0).val; rw [e10, hk0]; omega
  | ⟨1, _⟩ => show win0_1.index t (1 : Fin 2) * 2048 + 1 * (y 1).val = (k 1).val; rw [e11, hk1]; omega

/-- What point t writes back is block t of the row layer of the two arrays the region finds. -/
theorem flushed_eq (c : Dev nD) (t : Fin cfg0.N) :
    (dats m 0 c).flushed 2 t
      = ((cfg0.win 2).blk t).view.read (Elt Ideal) (TernaryLinear.rowsLayer (V m c main_v10) (V m c main_v9)) := by
  show (cfg0.win 2).cut (grid0.coords t) ((dats m 0 c).after 2 t) = _
  rw [after0_2]
  unfold out0_2
  rw [View.canon_unit_zero hz]
  simp only [View.ld_unit_zero (S := S512x2048) hz, View.ld_unit_zero (S := S2048x2048) hz]
  obtain ⟨-, -, -, -, e20, e21⟩ := idx_facts t
  funext j
  show k0_pay1 (F := Ideal) (iblk m c 0 t) (iblk m c 1 t) j
    = TernaryLinear.rowsLayer (V m c main_v10) (V m c main_v9) (((cfg0.win 2).blk t).view.emb j)
  refine (Body.pay_at (iblk m c 0 t) (iblk m c 1 t) j).trans ?_
  unfold TernaryLinear.rowsLayer
  refine Finset.sum_congr rfl fun d _ => ?_
  refine congrArg₂ (fun a b => TernaryLinear.qact a * b) (actBlock_apply m c t _ _ ?_ ?_) (weightBlock_apply m c t _ _ ?_ ?_)
  · show win0_2.index t (0 : Fin 2) * 512 + 1 * (j 0).val = 512 * t.val + (j 0).val
    rw [e20]; omega
  · rfl
  · rfl
  · show win0_2.index t (1 : Fin 2) * 2048 + 1 * (j 1).val = (j 1).val
    rw [e21]; omega

/-- An index of the flat result lies in point t's block iff each coordinate lies in the block's range on its axis. -/
theorem mem_blk (t : Fin cfg0.N) (i : S16384x2048.Idx) :
    i ∈ ((cfg0.win 2).blk t).view.set ↔ ∀ a : Fin 2, win0_2.index t a * S512x2048.size a ≤ (i a).val
      ∧ (i a).val < win0_2.index t a * S512x2048.size a + S512x2048.size a := by
  show i ∈ ((View.whole main_v11).slice (win0_2.rect t)).set ↔ _
  rw [View.set_slice_whole, Rect.mem_set_unit]
  exact Iff.rfl

/-- The flat result after the region: row r lies in the block of point r / 512, so the blocks cover it. -/
theorem final (c : Dev nD) :
    (dats m 0 c).arrAt 2 cfg0.N = TernaryLinear.rowsLayer (V m c main_v10) (V m c main_v9) :=
  (dats m 0 c).arrAt_eq_of_cover 2 _ (fun t _ => flushed_eq m c t) fun i => by
    have hi0 : (i 0).val < 16384 := (i 0).isLt
    have hi1 : (i 1).val < 2048 := (i 1).isLt
    have hN : cfg0.N = 32 := N_0
    have ht : (i 0).val / 512 < cfg0.N := by rw [hN]; omega
    obtain ⟨-, -, -, -, e20, e21⟩ := idx_facts ⟨(i 0).val / 512, ht⟩
    refine ⟨⟨(i 0).val / 512, ht⟩, flush0_2 _, ?_⟩
    rw [mem_blk]
    intro a
    match a with
    | ⟨0, _⟩ =>
      show win0_2.index ⟨(i 0).val / 512, ht⟩ (0 : Fin 2) * 512 ≤ (i 0).val
        ∧ (i 0).val < win0_2.index ⟨(i 0).val / 512, ht⟩ (0 : Fin 2) * 512 + 512
      rw [e20]; show (i 0).val / 512 * 512 ≤ (i 0).val ∧ (i 0).val < (i 0).val / 512 * 512 + 512; omega
    | ⟨1, _⟩ =>
      show win0_2.index ⟨(i 0).val / 512, ht⟩ (1 : Fin 2) * 2048 ≤ (i 1).val
        ∧ (i 1).val < win0_2.index ⟨(i 0).val / 512, ht⟩ (1 : Fin 2) * 2048 + 2048
      rw [e21]; omega

/-- The region finds the activations flattened. -/
theorem entry_act (c : Dev nD) : (V m c main_v10 : S16384x2048.Idx → Ideal .f32)
    = shapeCast S16384x2048 (m ((c : Thread nD τ).loc main_arg0)) shapeCasts_S4x4096x2048_S16384x2048 := by
  dsimp only [V, V0]
  simp only [hostOps0, hostOps0_1, hostOps0_2, hostOps0_3, hostOps0_4, List.flatten_cons, List.flatten_nil, List.append_nil,
    List.cons_append, List.nil_append]
  after_results
  rfl

/-- The region finds the weights quantised, perturbed, transposed and narrowed. -/
theorem entry_weight (c : Dev nD) : (V m c main_v9 : S2048x2048.Idx → Ideal .bf16)
    = Host.weightOperand (m ((c : Thread nD τ).loc main_arg1)) (m ((c : Thread nD τ).loc main_arg2)) := by
  dsimp only [V, V0]
  simp only [hostOps0, hostOps0_1, hostOps0_2, hostOps0_3, hostOps0_4, List.flatten_cons, List.flatten_nil, List.append_nil,
    List.cons_append, List.nil_append]
  after_results
  rfl

/-- The program's result after the reshape that follows the region: the layer of the three arguments. -/
theorem result_eq (c : Dev nD) :
    Pipeline.afterTail₀ cfgs (dats m) 0 (V0 m) [hostOps1] c main_v12
      = TernaryLinear.layer (m ((c : Thread nD τ).loc main_arg0)) (m ((c : Thread nD τ).loc main_arg1))
          (m ((c : Thread nD τ).loc main_arg2)) := by
  unfold Pipeline.afterTail₀
  show StableHlo.after hostOps1 _ (Proc.devRef .tc main_v12) = _
  after_results
  show shapeCast S4x4096x2048
      (Pipeline.withArrays (cfgs 0).spec c (V0 m c) (fun w => (dats m 0 c).arrAt w (cfgs 0).N) (Proc.devRef .tc main_v11))
      shapeCasts_S16384x2048_S4x4096x2048 = _
  rw [show Pipeline.withArrays (cfgs 0).spec c (V0 m c) (fun w => (dats m 0 c).arrAt w (cfgs 0).N) (Proc.devRef .tc main_v11)
      = TernaryLinear.rowsLayer (V m c main_v10) (V m c main_v9) from
    (Pipeline.withArrays_arr spec0 launch0.win.arr_inj c _ _ 2).trans (final m c)]
  rw [entry_act, entry_weight]
  exact Host.unflatten_rowsLayer _ _ _

/-- The run, read: every weakly fair execution ends with the result at the layer of the arguments, the arguments
    unchanged. -/
theorem run : θ_run defs (onTc (τ := τ) (main (F := Ideal))) ⟨m, fun _ => 0, ρ⟩ fun r => ∀ c : Dev nD,
      r.2.mem ((c.tc : Thread nD τ).loc main_v12)
        = TernaryLinear.layer (m ((c.tc : Thread nD τ).loc main_arg0)) (m ((c.tc : Thread nD τ).loc main_arg1))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v12 (Pipeline.mem_restRefs_of main_v12 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefValue.lean ====
/-
  The whole-array program computes the layer: its last stage, a product contracting the activations' last axis with the
  weights' last axis, read at an index, is the sum over d of the quantised activation at (b, s, d) times the perturbed
  quantised weight at (o, d).
-/
import proofs.«123948_j81260781240394_1_alg».proof.Proof.Gen.ReferenceIdeal.Read
import proofs.«123948_j81260781240394_1_alg».proof.Proof.Spec

noncomputable section

open scoped BigOperators

namespace Cert.ReferenceIdeal.RefValue

open Cert.ReferenceIdeal Cert.ReferenceIdeal.Read Idealize.ShloMosaic Idealize.ShloMosaic.ValueIdx

/-- The left operand of the product is read at (b, s, d). -/
theorem lidx_eq (i : S4x4096x2048.Idx) (k : Fin 2048) : lidx_main_v15 i k = ix3 (i 0) (i 1) k :=
  funext fun a => Fin.ext (by match a with | ⟨0, _⟩ => rfl | ⟨1, _⟩ => rfl | ⟨2, _⟩ => rfl)

/-- The right operand of the product is read at (o, d). -/
theorem ridx_eq (i : S4x4096x2048.Idx) (k : Fin 2048) : ridx_main_v15 i k = ix2 (i 2) k :=
  funext fun a => Fin.ext (by match a with | ⟨0, _⟩ => rfl | ⟨1, _⟩ => rfl)

/-- The program's result stage is the layer of its three arguments: both nested choices are the quantisers' (the
    comparison above the threshold outermost), the conversion between equal formats is the identity, and the product is
    the sum over the contracted coordinate. -/
theorem result_eq_layer (x0 : (⟨S4x4096x2048, .f32⟩ : BufTy).Contents (Elt Ideal))
    (x1 x2 : (⟨S2048x2048, .f32⟩ : BufTy).Contents (Elt Ideal)) :
    val_main_v15 (F := Ideal) x0 x1 x2 = TernaryLinear.layer x0 x1 x2 := by
  funext i
  rw [val_main_v15_apply]
  unfold TernaryLinear.layer
  refine Finset.sum_congr rfl fun k _ => ?_
  rw [lidx_eq, ridx_eq]
  simp only [val_main_v6_apply, val_main_v5_apply, val_main_v1_apply, val_main_v0_apply, val_main_cst_apply,
    val_main_call1_v0_apply, val_main_cst_3_apply, val_main_v4_apply, val_main_v3_apply, val_main_v2_apply,
    val_main_cst_0_apply, val_main_call0_v0_apply, val_main_cst_1_apply, val_main_call0_v1_apply, val_main_cst_2_apply,
    val_main_v14_apply, val_main_v13_apply, val_main_v12_apply, val_main_v8_apply, val_main_v7_apply, val_main_cst_4_apply,
    val_main_call3_v0_apply, val_main_cst_8_apply, val_main_v11_apply, val_main_v10_apply, val_main_v9_apply,
    val_main_cst_5_apply, val_main_call2_v0_apply, val_main_cst_6_apply, val_main_call2_v1_apply, val_main_cst_7_apply]
  rfl

end Cert.ReferenceIdeal.RefValue

end
-- ==== Proof.lean ====
/-
  A quantised linear layer: the tiled kernel program against the whole-array program, over the extended reals.

  Both programs compute, at (b, s, o), the sum over d of q_x(x[b, s, d]) * (q_w(w[o, d]) + r[o, d]), where q_x and q_w
  are three-level quantisers (a level above a threshold, its negative below the negated threshold, zero between) written
  with the same single-precision words on both sides.
  The whole-array program contracts the activations' last axis with the weights' last axis in one product.
  The kernel program first forms the perturbed quantised weights, transposes and narrows them (narrowing is the identity on
  extended reals), flattens the activations to 16384 rows, and runs a region over 32 blocks of 512 rows: each block is
  quantised entry by entry and multiplied on the matrix unit, into a zero accumulator, with the whole transposed weight
  matrix; the result is unflattened. Row b * 4096 + s of the flat matrices is the position (b, s), the transposed weight at
  (d, o) is the weight at (o, d), and a product into a zero accumulator is the plain sum of products: the two results are
  one function of the arguments, term by term, with the sum over d in the same order and each product's factors in the
  same order. No law beyond that is used, so the inputs' finiteness is not needed.
  The kernel programs' frames and the whole-array program's run are the generated ones; the idealization rewrote nothing.
-/
import proofs.«123948_j81260781240394_1_alg».proof.Defs
import proofs.«123948_j81260781240394_1_alg».proof.Proof.Gen.Kernel
import proofs.«123948_j81260781240394_1_alg».proof.Proof.Gen.Kernel.Skeleton
import proofs.«123948_j81260781240394_1_alg».proof.Proof.Gen.Kernel.Launch
import proofs.«123948_j81260781240394_1_alg».proof.Proof.Gen.Kernel.Points
import proofs.«123948_j81260781240394_1_alg».proof.Proof.Gen.Kernel.Frame
import proofs.«123948_j81260781240394_1_alg».proof.Proof.Gen.KernelIdeal
import proofs.«123948_j81260781240394_1_alg».proof.Proof.Gen.KernelIdeal.Skeleton
import proofs.«123948_j81260781240394_1_alg».proof.Proof.Gen.KernelIdeal.Launch
import proofs.«123948_j81260781240394_1_alg».proof.Proof.Gen.KernelIdeal.Points
import proofs.«123948_j81260781240394_1_alg».proof.Proof.Gen.KernelIdeal.Frame
import proofs.«123948_j81260781240394_1_alg».proof.Proof.Gen.ReferenceIdeal
import proofs.«123948_j81260781240394_1_alg».proof.Proof.Gen.Pre_finite_inputs
import proofs.«123948_j81260781240394_1_alg».proof.Proof.Gen.ReferenceIdeal.Run
import proofs.«123948_j81260781240394_1_alg».proof.Proof.Gen.ReferenceIdeal.Read
import proofs.«123948_j81260781240394_1_alg».proof.Proof.Whole
import proofs.«123948_j81260781240394_1_alg».proof.Proof.RefValue
import Idealize.ShloMosaic.Adequacy
import Idealize.ShloMosaic.Init

noncomputable section

namespace Cert.Proof

open Idealize.ShloMosaic Idealize.SL.Sem

/-- The kernel program as printed runs and keeps its arguments. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The whole-array program runs and keeps its arguments: its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the three arguments both programs end with the layer of those arguments in their result. -/
theorem algebraic : Cert.algebraic_KernelIdeal_ReferenceIdeal := by
  intro m ρ m' ρ' _ hagree
  refine ⟨fun c => TernaryLinear.layer
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.ReferenceIdeal.Read.val_main_v15_eq _ _ _).trans (Cert.ReferenceIdeal.RefValue.result_eq_layer _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
